-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x64 : Shape := ⟨3, ![16, 16384, 64]⟩
abbrev S16x64x256 : Shape := ⟨3, ![16, 64, 256]⟩
abbrev S16x256 : Shape := ⟨2, ![16, 256]⟩
abbrev S16x256x256 : Shape := ⟨3, ![16, 256, 256]⟩
abbrev S16x256x784 : Shape := ⟨3, ![16, 256, 784]⟩
abbrev S16x784 : Shape := ⟨2, ![16, 784]⟩
abbrev S_ : Shape := ⟨0, ![]⟩

class Facts : Prop where
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S16x64x256 : S_.BroadcastsInDim S16x64x256 (![] : Fin 0 → Fin S16x64x256.rank)
  reducesTo_S16x64x256_S_d0_1_2 : S16x64x256.ReducesTo [0, 1, 2] S_
  bcast_S_S16x256 : S_.BroadcastsInDim S16x256 (![] : Fin 0 → Fin S16x256.rank)
  reducesTo_S16x256_S_d0_1 : S16x256.ReducesTo [0, 1] S_
  bcast_S_S16x256x256 : S_.BroadcastsInDim S16x256x256 (![] : Fin 0 → Fin S16x256x256.rank)
  reducesTo_S16x256x256_S_d0_1_2 : S16x256x256.ReducesTo [0, 1, 2] S_
  bcast_S_S16x256x784 : S_.BroadcastsInDim S16x256x784 (![] : Fin 0 → Fin S16x256x784.rank)
  reducesTo_S16x256x784_S_d0_1_2 : S16x256x784.ReducesTo [0, 1, 2] S_
  bcast_S_S16x784 : S_.BroadcastsInDim S16x784 (![] : Fin 0 → Fin S16x784.rank)
  reducesTo_S16x784_S_d0_1 : S16x784.ReducesTo [0, 1] S_

variable [Facts]

def fn_part1 {F : FTy → Type} [FloatOps F] (main_arg4 : FVec F S16x256 .f32) (main_arg5 : FVec F S16x256x784 .f32) (main_arg6 : FVec F S16x784 .f32) (main_v13 : IVec S_ 1) (main_v16 : IVec S16x256x256 1) : IVec S_ 1 :=
  let main_c_5 : IVec S_ 1 := constantI S_ 1 1#1
  let main_v17 : IVec S_ 1 := (fun x v => Host.reduce IntOp.andi x v reducesTo_S16x256x256_S_d0_1_2 h_S_) main_v16 main_c_5
  let main_v18 : IVec S_ 1 := andi main_v13 main_v17
  let main_v19 : FVec F S16x256 .f32 := Host.absf main_arg4
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S16x256x784 .f32 := Host.absf main_arg5
  let main_cst_8 : FVec F S_ .f32 := constant S_ .f32 0x7F800000#32
  let main_v25 : FVec F S16x256x784 .f32 := broadcastInDim S16x256x784 ![] bcast_S_S16x256x784 main_cst_8
  let main_v26 : IVec S16x256x784 1 := cmpf .olt main_v24 main_v25
  let main_c_9 : IVec S_ 1 := constantI S_ 1 1#1
  let main_v27 : IVec S_ 1 := (fun x v => Host.reduce IntOp.andi x v reducesTo_S16x256x784_S_d0_1_2 h_S_) main_v26 main_c_9
  let main_v28 : IVec S_ 1 := andi main_v23 main_v27
  let main_v29 : FVec F S16x784 .f32 := Host.absf main_arg6
  let main_cst_10 : FVec F S_ .f32 := constant S_ .f32 0x7F800000#32
  let main_v30 : FVec F S16x784 .f32 := broadcastInDim S16x784 ![] bcast_S_S16x784 main_cst_10
  let main_v31 : IVec S16x784 1 := cmpf .olt main_v29 main_v30
  let main_c_11 : IVec S_ 1 := constantI S_ 1 1#1
  let main_v32 : IVec S_ 1 := (fun x v => Host.reduce IntOp.andi x v reducesTo_S16x784_S_d0_1 h_S_) main_v31 main_c_11
  let main_v33 : IVec S_ 1 := andi main_v28 main_v32
  main_v33

def fn {F : FTy → Type} [FloatOps F] (main_arg0 : FVec F S16x16384x64 .f32) (main_arg1 : FVec F S16x64x256 .f32) (main_arg2 : FVec F S16x256 .f32) (main_arg3 : FVec F S16x256x256 .f32) (main_arg4 : FVec F S16x256 .f32) (main_arg5 : FVec F S16x256x784 .f32) (main_arg6 : FVec F S16x784 .f32) : IVec S_ 1 :=
  let main_v0 : FVec F S16x16384x64 .f32 := Host.absf main_arg0
  let main_cst : FVec F S_ .f32 := constant S_ .f32 0x7F800000#32
  let main_v1 : FVec F S16x16384x64 .f32 := broadcastInDim S16x16384x64 ![] bcast_S_S16x16384x64 main_cst
  let main_v2 : IVec S16x16384x64 1 := cmpf .olt main_v0 main_v1
  let main_c : IVec S_ 1 := constantI S_ 1 1#1
  let main_v3 : IVec S_ 1 := (fun x v => Host.reduce IntOp.andi x v reducesTo_S16x16384x64_S_d0_1_2 h_S_) main_v2 main_c
  let main_v4 : FVec F S16x64x256 .f32 := Host.absf main_arg1
  let main_cst_0 : FVec F S_ .f32 := constant S_ .f32 0x7F800000#32
  let main_v5 : FVec F S16x64x256 .f32 := broadcastInDim S16x64x256 ![] bcast_S_S16x64x256 main_cst_0
  let main_v6 : IVec S16x64x256 1 := cmpf .olt main_v4 main_v5
  let main_c_1 : IVec S_ 1 := constantI S_ 1 1#1
  let main_v7 : IVec S_ 1 := (fun x v => Host.reduce IntOp.andi x v reducesTo_S16x64x256_S_d0_1_2 h_S_) main_v6 main_c_1
  let main_v8 : IVec S_ 1 := andi main_v3 main_v7
  let main_v9 : FVec F S16x256 .f32 := Host.absf main_arg2
  let main_cst_2 : FVec F S_ .f32 := constant S_ .f32 0x7F800000#32
  let main_v10 : FVec F S16x256 .f32 := broadcastInDim S16x256 ![] bcast_S_S16x256 main_cst_2
  let main_v11 : IVec S16x256 1 := cmpf .olt main_v9 main_v10
  let main_c_3 : IVec S_ 1 := constantI S_ 1 1#1
  let main_v12 : IVec S_ 1 := (fun x v => Host.reduce IntOp.andi x v reducesTo_S16x256_S_d0_1 h_S_) main_v11 main_c_3
  let main_v13 : IVec S_ 1 := andi main_v8 main_v12
  let main_v14 : FVec F S16x256x256 .f32 := Host.absf main_arg3
  let main_cst_4 : FVec F S_ .f32 := constant S_ .f32 0x7F800000#32
  let main_v15 : FVec F S16x256x256 .f32 := broadcastInDim S16x256x256 ![] bcast_S_S16x256x256 main_cst_4
  let main_v16 : IVec S16x256x256 1 := cmpf .olt main_v14 main_v15
  fn_part1 (F := F) main_arg4 main_arg5 main_arg6 main_v13 main_v16
-- ==== Kernel.lean ====
abbrev S16x16384x64 : Shape := ⟨3, ![16, 16384, 64]⟩
abbrev S16x64x256 : Shape := ⟨3, ![16, 64, 256]⟩
abbrev S16x256 : Shape := ⟨2, ![16, 256]⟩
abbrev S16x256x256 : Shape := ⟨3, ![16, 256, 256]⟩
abbrev S16x256x784 : Shape := ⟨3, ![16, 256, 784]⟩
abbrev S16x784 : Shape := ⟨2, ![16, 784]⟩
abbrev S16x1x256 : Shape := ⟨3, ![16, 1, 256]⟩
abbrev S16x1x784 : Shape := ⟨3, ![16, 1, 784]⟩
abbrev S16x16384x784 : Shape := ⟨3, ![16, 16384, 784]⟩
abbrev S1x2048x64 : Shape := ⟨3, ![1, 2048, 64]⟩
abbrev S1x64x256 : Shape := ⟨3, ![1, 64, 256]⟩
abbrev S1x1x256 : Shape := ⟨3, ![1, 1, 256]⟩
abbrev S1x256x256 : Shape := ⟨3, ![1, 256, 256]⟩
abbrev S1x256x784 : Shape := ⟨3, ![1, 256, 784]⟩
abbrev S1x1x784 : Shape := ⟨3, ![1, 1, 784]⟩
abbrev S1x2048x784 : Shape := ⟨3, ![1, 2048, 784]⟩
abbrev S2048x64 : Shape := ⟨2, ![2048, 64]⟩
abbrev S64x256 : Shape := ⟨2, ![64, 256]⟩
abbrev S256 : Shape := ⟨1, ![256]⟩
abbrev S2048x256 : Shape := ⟨2, ![2048, 256]⟩
abbrev S1x256 : Shape := ⟨2, ![1, 256]⟩
abbrev S256x256 : Shape := ⟨2, ![256, 256]⟩
abbrev S256x784 : Shape := ⟨2, ![256, 784]⟩
abbrev S784 : Shape := ⟨1, ![784]⟩
abbrev S2048x784 : Shape := ⟨2, ![2048, 784]⟩
abbrev S1x784 : Shape := ⟨2, ![1, 784]⟩

abbrev nBuf : Space → Nat
  | .hbm => 11
  | .vmem => 16
  | .smem => 0
  | _ => 0

abbrev bufTy : (tb : Table) → Fin (tcTables nBuf tb) → BufTy
  | .hbm, ⟨0, _⟩ => ⟨S16x16384x64, .f32⟩
  | .hbm, ⟨1, _⟩ => ⟨S16x64x256, .f32⟩
  | .hbm, ⟨2, _⟩ => ⟨S16x256, .f32⟩
  | .hbm, ⟨3, _⟩ => ⟨S16x256x256, .f32⟩
  | .hbm, ⟨4, _⟩ => ⟨S16x256, .f32⟩
  | .hbm, ⟨5, _⟩ => ⟨S16x256x784, .f32⟩
  | .hbm, ⟨6, _⟩ => ⟨S16x784, .f32⟩
  | .hbm, ⟨7, _⟩ => ⟨S16x1x256, .f32⟩
  | .hbm, ⟨8, _⟩ => ⟨S16x1x256, .f32⟩
  | .hbm, ⟨9, _⟩ => ⟨S16x1x784, .f32⟩
  | .hbm, ⟨10, _⟩ => ⟨S16x16384x784, .f32⟩
  | .local _ .vmem, ⟨0, _⟩ => ⟨S1x2048x64, .f32⟩
  | .local _ .vmem, ⟨1, _⟩ => ⟨S1x2048x64, .f32⟩
  | .local _ .vmem, ⟨2, _⟩ => ⟨S1x64x256, .f32⟩
  | .local _ .vmem, ⟨3, _⟩ => ⟨S1x64x256, .f32⟩
  | .local _ .vmem, ⟨4, _⟩ => ⟨S1x1x256, .f32⟩
  | .local _ .vmem, ⟨5, _⟩ => ⟨S1x1x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S1x256x784, .f32⟩
  | .local _ .vmem, ⟨11, _⟩ => ⟨S1x256x784, .f32⟩
  | .local _ .vmem, ⟨12, _⟩ => ⟨S1x1x784, .f32⟩
  | .local _ .vmem, ⟨13, _⟩ => ⟨S1x1x784, .f32⟩
  | .local _ .vmem, ⟨14, _⟩ => ⟨S1x2048x784, .f32⟩
  | .local _ .vmem, ⟨15, _⟩ => ⟨S1x2048x784, .f32⟩
  | _, _ => ⟨S16x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x784 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x784 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x784 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S16x256_S16x1x256 : S16x256.ShapeCasts S16x1x256
  shapeCasts_S16x784_S16x1x784 : S16x784.ShapeCasts S16x1x784
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  bitsLt_bf16_f32 : FTy.bits .bf16 < FTy.bits .f32
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S2048x256 : S1x256.Broadcasts S2048x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x784_S1x256x784_0_0_0 : ∀ a, (![0, 0, 0] : Fin 3 → Nat) a + S1x256x784.size a ≤ S1x256x784.size a
  h_S1x256x784 : 0 < S1x256x784.numel
  shapeCasts_S1x256x784_S256x784 : S1x256x784.ShapeCasts S256x784
  inb_S1x1x784_S1x1x784_0_0_0 : ∀ a, (![0, 0, 0] : Fin 3 → Nat) a + S1x1x784.size a ≤ S1x1x784.size a
  h_S1x1x784 : 0 < S1x1x784.numel
  shapeCasts_S1x1x784_S784 : S1x1x784.ShapeCasts S784
  shapeCasts_S784_S1x784 : S784.ShapeCasts S1x784
  broadcasts_S1x784_S2048x784 : S1x784.Broadcasts S2048x784
  inb_S1x2048x784_S1x2048x784_0_0_0 : ∀ a, (![0, 0, 0] : Fin 3 → Nat) a + S1x2048x784.size a ≤ S1x2048x784.size a
  h_S1x2048x784 : 0 < S1x2048x784.numel
  shapeCasts_S1x2048x784_S2048x784 : S1x2048x784.ShapeCasts S2048x784
  shapeCasts_S2048x784_S1x2048x784 : S2048x784.ShapeCasts S1x2048x784
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []
  dot_S2048x256_S256x784_S2048x784_1_0_0_1_n_n_wf : DotDims.WF S2048x256 S256x784 S2048x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x16384x64.size a
  hwx0_0 : ∀ i : grid0.Coords, EltTy.bits .f32 = 32 ∨ (Rect.block (s := S16x16384x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256.size a ≤ S16x64x256.size a
  hwx0_1 : ∀ i : grid0.Coords, EltTy.bits .f32 = 32 ∨ (Rect.block (s := S16x64x256) S1x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S16x256x256.size a
  hwx0_3 : ∀ i : grid0.Coords, EltTy.bits .f32 = 32 ∨ (Rect.block (s := S16x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S16x1x256.size a
  hwx0_4 : ∀ i : grid0.Coords, EltTy.bits .f32 = 32 ∨ (Rect.block (s := S16x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x784.size a ≤ S16x256x784.size a
  hwx0_5 : ∀ i : grid0.Coords, EltTy.bits .f32 = 32 ∨ (Rect.block (s := S16x256x784) S1x256x784.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x784.size a ≤ S16x1x784.size a
  hwx0_6 : ∀ i : grid0.Coords, EltTy.bits .f32 = 32 ∨ (Rect.block (s := S16x1x784) S1x1x784.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x784.size a ≤ S16x16384x784.size a
  hwx0_7 : ∀ i : grid0.Coords, EltTy.bits .f32 = 32 ∨ (Rect.block (s := S16x16384x784) S1x2048x784.size (cc0_transform_7 i) (hinb0_7 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x784_S2048x784_1_0_0_1_n_n : DotDims S2048x256 S256x784 S2048x784 where
  lhsContracting := [1]
  rhsContracting := [0]
  lhsNonContracting := [0]
  rhsNonContracting := [1]
  lhsBatch := []
  rhsBatch := []
  wf := dot_S2048x256_S256x784_S2048x784_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x784.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1x784.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048x784.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x16384x64 : Shape := ⟨3, ![16, 16384, 64]⟩
abbrev S16x64x256 : Shape := ⟨3, ![16, 64, 256]⟩
abbrev S16x256 : Shape := ⟨2, ![16, 256]⟩
abbrev S16x256x256 : Shape := ⟨3, ![16, 256, 256]⟩
abbrev S16x256x784 : Shape := ⟨3, ![16, 256, 784]⟩
abbrev S16x784 : Shape := ⟨2, ![16, 784]⟩
abbrev S16x16384x256 : Shape := ⟨3, ![16, 16384, 256]⟩
abbrev S16x1x256 : Shape := ⟨3, ![16, 1, 256]⟩
abbrev S_ : Shape := ⟨0, ![]⟩
abbrev S16x16384x784 : Shape := ⟨3, ![16, 16384, 784]⟩
abbrev S16x1x784 : Shape := ⟨3, ![16, 1, 784]⟩

abbrev nBuf : Space → Nat
  | .hbm => 33
  | .vmem => 0
  | .smem => 0
  | _ => 0

abbrev bufTy : (tb : Table) → Fin (tcTables nBuf tb) → BufTy
  | .hbm, ⟨0, _⟩ => ⟨S16x16384x64, .f32⟩
  | .hbm, ⟨1, _⟩ => ⟨S16x64x256, .f32⟩
  | .hbm, ⟨2, _⟩ => ⟨S16x256, .f32⟩
  | .hbm, ⟨3, _⟩ => ⟨S16x256x256, .f32⟩
  | .hbm, ⟨4, _⟩ => ⟨S16x256, .f32⟩
  | .hbm, ⟨5, _⟩ => ⟨S16x256x784, .f32⟩
  | .hbm, ⟨6, _⟩ => ⟨S16x784, .f32⟩
  | .hbm, ⟨7, _⟩ => ⟨S16x16384x256, .f32⟩
  | .hbm, ⟨8, _⟩ => ⟨S16x1x256, .f32⟩
  | .hbm, ⟨9, _⟩ => ⟨S16x16384x256, .f32⟩
  | .hbm, ⟨10, _⟩ => ⟨S16x16384x256, .f32⟩
  | .hbm, ⟨11, _⟩ => ⟨S_, .f32⟩
  | .hbm, ⟨12, _⟩ => ⟨S16x16384x256, .f32⟩
  | .hbm, ⟨13, _⟩ => ⟨S16x16384x256, .f32⟩
  | .hbm, ⟨14, _⟩ => ⟨S16x16384x256, .f32⟩
  | .hbm, ⟨15, _⟩ => ⟨S16x1x256, .f32⟩
  | .hbm, ⟨16, _⟩ => ⟨S16x16384x256, .f32⟩
  | .hbm, ⟨17, _⟩ => ⟨S16x16384x256, .f32⟩
  | .hbm, ⟨18, _⟩ => ⟨S_, .f32⟩
  | .hbm, ⟨19, _⟩ => ⟨S16x16384x256, .f32⟩
  | .hbm, ⟨20, _⟩ => ⟨S16x16384x256, .f32⟩
  | .hbm, ⟨21, _⟩ => ⟨S16x16384x784, .f32⟩
  | .hbm, ⟨22, _⟩ => ⟨S16x1x784, .f32⟩
  | .hbm, ⟨23, _⟩ => ⟨S16x16384x784, .f32⟩
  | .hbm, ⟨24, _⟩ => ⟨S16x16384x784, .f32⟩
  | .hbm, ⟨25, _⟩ => ⟨S16x16384x784, .f32⟩
  | .hbm, ⟨26, _⟩ => ⟨S16x16384x784, .f32⟩
  | .hbm, ⟨27, _⟩ => ⟨S_, .f32⟩
  | .hbm, ⟨28, _⟩ => ⟨S16x16384x784, .f32⟩
  | .hbm, ⟨29, _⟩ => ⟨S16x16384x784, .f32⟩
  | .hbm, ⟨30, _⟩ => ⟨S_, .f32⟩
  | .hbm, ⟨31, _⟩ => ⟨S16x16384x784, .f32⟩
  | .hbm, ⟨32, _⟩ => ⟨S16x16384x784, .f32⟩
  | _, _ => ⟨S16x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S16x256_S16x1x256_0_2 : S16x256.BroadcastsInDim S16x1x256 (![0, 2] : Fin 2 → Fin S16x1x256.rank)
  bcast_S16x1x256_S16x16384x256_0_1_2 : S16x1x256.BroadcastsInDim S16x16384x256 (![0, 1, 2] : Fin 3 → Fin S16x16384x256.rank)
  bcast_S_S16x16384x256 : S_.BroadcastsInDim S16x16384x256 (![] : Fin 0 → Fin S16x16384x256.rank)
  bcast_S16x784_S16x1x784_0_2 : S16x784.BroadcastsInDim S16x1x784 (![0, 2] : Fin 2 → Fin S16x1x784.rank)
  bcast_S16x1x784_S16x16384x784_0_1_2 : S16x1x784.BroadcastsInDim S16x16384x784 (![0, 1, 2] : Fin 3 → Fin S16x16384x784.rank)
  bcast_S_S16x16384x784 : S_.BroadcastsInDim S16x16384x784 (![] : Fin 0 → Fin S16x16384x784.rank)
  dot_S16x16384x64_S16x64x256_S16x16384x256_2_1_1_2_0_0_wf : DotDims.WF S16x16384x64 S16x64x256 S16x16384x256 [2] [1] [1] [2] [0] [0]
  dot_S16x16384x256_S16x256x256_S16x16384x256_2_1_1_2_0_0_wf : DotDims.WF S16x16384x256 S16x256x256 S16x16384x256 [2] [1] [1] [2] [0] [0]
  dot_S16x16384x256_S16x256x784_S16x16384x784_2_1_1_2_0_0_wf : DotDims.WF S16x16384x256 S16x256x784 S16x16384x784 [2] [1] [1] [2] [0] [0]

variable [Facts₀]

def dot_S16x16384x64_S16x64x256_S16x16384x256_2_1_1_2_0_0 : DotDims S16x16384x64 S16x64x256 S16x16384x256 where
  lhsContracting := [2]
  rhsContracting := [1]
  lhsNonContracting := [1]
  rhsNonContracting := [2]
  lhsBatch := [0]
  rhsBatch := [0]
  wf := dot_S16x16384x64_S16x64x256_S16x16384x256_2_1_1_2_0_0_wf
def dot_S16x16384x256_S16x256x256_S16x16384x256_2_1_1_2_0_0 : DotDims S16x16384x256 S16x256x256 S16x16384x256 where
  lhsContracting := [2]
  rhsContracting := [1]
  lhsNonContracting := [1]
  rhsNonContracting := [2]
  lhsBatch := [0]
  rhsBatch := [0]
  wf := dot_S16x16384x256_S16x256x256_S16x16384x256_2_1_1_2_0_0_wf
def dot_S16x16384x256_S16x256x784_S16x16384x784_2_1_1_2_0_0 : DotDims S16x16384x256 S16x256x784 S16x16384x784 where
  lhsContracting := [2]
  rhsContracting := [1]
  lhsNonContracting := [1]
  rhsNonContracting := [2]
  lhsBatch := [0]
  rhsBatch := [0]
  wf := dot_S16x16384x256_S16x256x784_S16x16384x784_2_1_1_2_0_0_wf

class Facts : Prop extends Facts₀ where

variable [Facts]
-- ==== Proof.MlpRow.lean ====
/-
  The mathematics of the certificate, free of any program: one ROW of a three-layer perceptron over the
  extended reals.

  For a row `s : Fin 64 → EReal` and one mixture's parameters the network computes
    h₁ j = max (∑ i, s i · Wz i j + bz j) 0,
    h₂ k = max (∑ j, h₁ j · Wh j k + bh k) 0,
    out o = σ (∑ k, h₂ k · Wx k o + bx o),    σ x = 1 / (1 + e^(-x)).
  Both programs of the certificate compute exactly this expression, entry by entry, with the sums taken
  over the same finite index types; no law beyond the definition of σ is needed to join them, so nothing
  here asks the entries to be finite.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.MlpRow

/-- The word of the float zero both programs take the maximum against. -/
abbrev zeroWord : EReal := Ideal.ofBits .f32 0x00000000#32

/-- The word of the float one the reference's quotient is spelt with. -/
abbrev oneWord : EReal := Ideal.ofBits .f32 0x3F800000#32

/-- One affine entry: the inner product of an input row with a weight column, plus the bias. -/
def affineEntry {K : Nat} (x W : Fin K → EReal) (b : EReal) : EReal := (∑ k : Fin K, x k * W k) + b

/-- One hidden entry: the affine entry cut off below at zero. -/
def hiddenEntry {K : Nat} (x W : Fin K → EReal) (b : EReal) : EReal := max (affineEntry x W b) zeroWord

/-- One output entry of the network, as a function of the input row and the mixture's three weight
    matrices and three bias rows. -/
def outEntry (s : Fin 64 → EReal) (Wz : Fin 64 → Fin 256 → EReal) (bz : Fin 256 → EReal)
    (Wh : Fin 256 → Fin 256 → EReal) (bh : Fin 256 → EReal)
    (Wx : Fin 256 → Fin 784 → EReal) (bx : Fin 784 → EReal) (o : Fin 784) : EReal :=
  Ideal.logistic (affineEntry
    (fun k => hiddenEntry (fun j => hiddenEntry s (fun i => Wz i j) (bz j)) (fun j => Wh j k) (bh k))
    (fun k => Wx k o) (bx o))

/-- The network applied row by row: the [16, 16384, 784] array whose entry (n, b, o) is the output entry o for the
    input row (n, b, ·) and the parameters of mixture n. -/
def net (a0 : (⟨3, ![16, 16384, 64]⟩ : Shape).Idx → EReal) (a1 : (⟨3, ![16, 64, 256]⟩ : Shape).Idx → EReal)
    (a2 : (⟨2, ![16, 256]⟩ : Shape).Idx → EReal) (a3 : (⟨3, ![16, 256, 256]⟩ : Shape).Idx → EReal)
    (a4 : (⟨2, ![16, 256]⟩ : Shape).Idx → EReal) (a5 : (⟨3, ![16, 256, 784]⟩ : Shape).Idx → EReal)
    (a6 : (⟨2, ![16, 784]⟩ : Shape).Idx → EReal) : (⟨3, ![16, 16384, 784]⟩ : Shape).Idx → EReal := fun i =>
  outEntry (fun k => a0 (ix3 (i 0) (i 1) k)) (fun k j => a1 (ix3 (i 0) k j)) (fun j => a2 (ix2 (i 0) j))
    (fun j k => a3 (ix3 (i 0) j k)) (fun k => a4 (ix2 (i 0) k)) (fun k o => a5 (ix3 (i 0) k o))
    (fun o => a6 (ix2 (i 0) o)) (i 2)

/-- The float one denotes the real one. -/
theorem oneWord_eq : oneWord = 1 := by
  unfold oneWord
  simp [Ideal.ofBits, Ideal.ieee, -EReal.coe_mul]
  norm_num

/-- The sigmoid written out as a quotient, the way the reference spells it, is the sigmoid. -/
theorem logistic_expanded (x : EReal) : Ideal.div oneWord (oneWord + Ideal.exp (-x)) = Ideal.logistic x := by
  rw [oneWord_eq]
  rfl

end Cert.MlpRow

end
-- ==== Proof.RefRow.lean ====
/-
  The reference, entry by entry, is the row function of `MlpRow`.

  Each `einsum` of the reference contracts the last axis of its left operand with the middle axis of the
  mixture's weight array, so its entry (n, b, j) is the inner product of row (n, b, ·) with column (n, ·, j);
  the bias is broadcast along the batch axis; `relu` is the maximum with the zero array; and the final
  quotient 1 / (1 + e^(-x)) is the sigmoid. Layer by layer the stage at an index is one `hiddenEntry` entry of
  the stage before it, and the last stage one `outEntry` entry of the seven arguments.
-/
import proofs.«125137_j68487548502138_1_alg».proof.Proof.Gen.ReferenceIdeal.Read
import proofs.«125137_j68487548502138_1_alg».proof.Proof.MlpRow

noncomputable section

open Idealize.ShloMosaic Idealize.ShloMosaic.TcCoe Idealize.ShloMosaic.ValueIdx

namespace Cert.ReferenceIdeal.RefRow

open Cert.ReferenceIdeal Cert.ReferenceIdeal.Read Cert.MlpRow

variable (x0 : (⟨S16x16384x64, .f32⟩ : BufTy).Contents (Elt Ideal)) (x1 : (⟨S16x64x256, .f32⟩ : BufTy).Contents (Elt Ideal))
  (x2 : (⟨S16x256, .f32⟩ : BufTy).Contents (Elt Ideal)) (x3 : (⟨S16x256x256, .f32⟩ : BufTy).Contents (Elt Ideal))
  (x4 : (⟨S16x256, .f32⟩ : BufTy).Contents (Elt Ideal)) (x5 : (⟨S16x256x784, .f32⟩ : BufTy).Contents (Elt Ideal))
  (x6 : (⟨S16x784, .f32⟩ : BufTy).Contents (Elt Ideal))

/-- First hidden layer: entry (n, b, j) is `hiddenEntry` of input row (n, b, ·), weight column (n, ·, j) and bias (n, j). -/
theorem layer1_at (n : Fin 16) (b : Fin 16384) (j : Fin 256) :
    val_main_v4 (F := Ideal) x0 x1 x2 (ix3 n b j)
      = hiddenEntry (fun i : Fin 64 => x0 (ix3 n b i)) (fun i : Fin 64 => x1 (ix3 n i j)) (x2 (ix2 n j)) := by
  rw [val_main_v4_apply, val_main_v3_apply, val_main_v0_apply, val_main_v2_apply, val_main_v1_apply,
    val_main_call0_v0_apply, val_main_call0_cst_apply]
  have el : ∀ k : Fin 64, lidx_main_v0 (ix3 n b j) k = ix3 n b k := fun k => funext fun a => by
    match a with | ⟨0, _⟩ => rfl | ⟨1, _⟩ => rfl | ⟨2, _⟩ => rfl
  have er : ∀ k : Fin 64, ridx_main_v0 (ix3 n b j) k = ix3 n k j := fun k => funext fun a => by
    match a with | ⟨0, _⟩ => rfl | ⟨1, _⟩ => rfl | ⟨2, _⟩ => rfl
  have eb : idx_main_v1 (idx_main_v2 (ix3 n b j)) = ix2 n j := funext fun a => by
    match a with | ⟨0, _⟩ => rfl | ⟨1, _⟩ => rfl
  simp only [el, er, eb]
  rfl

/-- Second hidden layer: entry (n, b, k) is `hiddenEntry` of the first layer's row (n, b, ·). -/
theorem layer2_at (n : Fin 16) (b : Fin 16384) (k : Fin 256) :
    val_main_v9 (F := Ideal) x0 x1 x2 x3 x4 (ix3 n b k)
      = hiddenEntry (fun j : Fin 256 => val_main_v4 (F := Ideal) x0 x1 x2 (ix3 n b j)) (fun j : Fin 256 => x3 (ix3 n j k)) (x4 (ix2 n k)) := by
  rw [val_main_v9_apply, val_main_v8_apply, val_main_v5_apply, val_main_v7_apply, val_main_v6_apply,
    val_main_call1_v0_apply, val_main_call1_cst_apply]
  have el : ∀ q : Fin 256, lidx_main_v5 (ix3 n b k) q = ix3 n b q := fun q => funext fun a => by
    match a with | ⟨0, _⟩ => rfl | ⟨1, _⟩ => rfl | ⟨2, _⟩ => rfl
  have er : ∀ q : Fin 256, ridx_main_v5 (ix3 n b k) q = ix3 n q k := fun q => funext fun a => by
    match a with | ⟨0, _⟩ => rfl | ⟨1, _⟩ => rfl | ⟨2, _⟩ => rfl
  have eb : idx_main_v6 (idx_main_v7 (ix3 n b k)) = ix2 n k := funext fun a => by
    match a with | ⟨0, _⟩ => rfl | ⟨1, _⟩ => rfl
  simp only [el, er, eb]
  rfl

/-- The affine part of the output layer: entry (n, b, o) is `affineEntry` of the second layer's row (n, b, ·). -/
theorem layer3_at (n : Fin 16) (b : Fin 16384) (o : Fin 784) :
    val_main_v13 (F := Ideal) x0 x1 x2 x3 x4 x5 x6 (ix3 n b o)
      = affineEntry (fun k : Fin 256 => val_main_v9 (F := Ideal) x0 x1 x2 x3 x4 (ix3 n b k)) (fun k : Fin 256 => x5 (ix3 n k o)) (x6 (ix2 n o)) := by
  rw [val_main_v13_apply, val_main_v10_apply, val_main_v12_apply, val_main_v11_apply]
  have el : ∀ q : Fin 256, lidx_main_v10 (ix3 n b o) q = ix3 n b q := fun q => funext fun a => by
    match a with | ⟨0, _⟩ => rfl | ⟨1, _⟩ => rfl | ⟨2, _⟩ => rfl
  have er : ∀ q : Fin 256, ridx_main_v10 (ix3 n b o) q = ix3 n q o := fun q => funext fun a => by
    match a with | ⟨0, _⟩ => rfl | ⟨1, _⟩ => rfl | ⟨2, _⟩ => rfl
  have eb : idx_main_v11 (idx_main_v12 (ix3 n b o)) = ix2 n o := funext fun a => by
    match a with | ⟨0, _⟩ => rfl | ⟨1, _⟩ => rfl
  simp only [el, er, eb]
  rfl

/-- The reference's result at (n, b, o) is the network's output entry `o` for input row (n, b, ·) and mixture `n`'s
    parameters. -/
theorem result_at (n : Fin 16) (b : Fin 16384) (o : Fin 784) :
    val_main_v19 (F := Ideal) x0 x1 x2 x3 x4 x5 x6 (ix3 n b o)
      = outEntry (fun i => x0 (ix3 n b i)) (fun i j => x1 (ix3 n i j)) (fun j => x2 (ix2 n j))
          (fun j k => x3 (ix3 n j k)) (fun k => x4 (ix2 n k)) (fun k o => x5 (ix3 n k o)) (fun o => x6 (ix2 n o)) o := by
  rw [val_main_v19_apply, val_main_v18_apply, val_main_cst_0_apply, val_main_v17_apply, val_main_v16_apply,
    val_main_cst_apply, val_main_v15_apply, val_main_v14_apply, layer3_at]
  simp only [layer2_at, layer1_at]
  exact logistic_expanded _

/-- The reference's result array is the network applied row by row. -/
theorem result_eq :
    val_main_v19 (F := Ideal) x0 x1 x2 x3 x4 x5 x6 = net x0 x1 x2 x3 x4 x5 x6 := by
  funext i
  have hi : i = ix3 (i 0) (i 1) (i 2) := eq_ix3 i
  conv_lhs => rw [hi]
  exact result_at x0 x1 x2 x3 x4 x5 x6 (i 0) (i 1) (i 2)

end Cert.ReferenceIdeal.RefRow

end
-- ==== Proof.KernelRow.lean ====
/-
  One grid point of the kernel, entry by entry, is the row function of `MlpRow`.

  At a grid point the body holds a [1, 2048, 64] block of inputs and one mixture's parameters as blocks with a
  leading unit axis. It drops the unit axes, multiplies (each product into a zero accumulator, so its entry is
  the plain inner product of a row with a column), adds the bias row to every row, cuts off at zero twice, and
  applies the sigmoid. Changing the float format is the identity on the extended reals. So the stored block's
  entry (0, r, o) is `MlpRow.outEntry` of input row r of the block and the blocks' parameter entries.
-/
import proofs.«125137_j68487548502138_1_alg».proof.Proof.Gen.KernelIdeal.Skeleton
import proofs.«125137_j68487548502138_1_alg».proof.Proof.MlpRow
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Row

open Cert.KernelIdeal Cert.KernelIdeal.Gen Cert.MlpRow

/-! ## Reading the layout operations at an index -/

section Layout
variable {α : Type}

/-- A [1, A, B] block viewed as [A, B]: entry (a, b) is the block's entry (0, a, b). -/
theorem squeeze_at (A B : Nat) (x : (⟨3, ![1, A, B]⟩ : Shape).Idx → α)
    (h : (⟨3, ![1, A, B]⟩ : Shape).ShapeCasts ⟨2, ![A, B]⟩) (a : Fin A) (b : Fin B) :
    shapeCast ⟨2, ![A, B]⟩ x h (ix2 a b) = x (ix3 (0 : Fin 1) a b) :=
  shapeCast_apply x h (ix2 a b) (ix3 (0 : Fin 1) a b) (by
    rw [Shape.rowMajor_val_three, Shape.rowMajor_val_two]
    show ((0 : ℕ) * A + a.val) * B + b.val = a.val * B + b.val
    rw [Nat.zero_mul, Nat.zero_add])

/-- An [A, B] value stored as a [1, A, B] block: the block's entry (0, a, b) is the value's entry (a, b). -/
theorem unsqueeze_at (A B : Nat) (x : (⟨2, ![A, B]⟩ : Shape).Idx → α)
    (h : (⟨2, ![A, B]⟩ : Shape).ShapeCasts ⟨3, ![1, A, B]⟩) (a : Fin A) (b : Fin B) :
    shapeCast ⟨3, ![1, A, B]⟩ x h (ix3 (0 : Fin 1) a b) = x (ix2 a b) :=
  shapeCast_apply x h (ix3 (0 : Fin 1) a b) (ix2 a b) (by
    rw [Shape.rowMajor_val_three, Shape.rowMajor_val_two]
    show a.val * B + b.val = ((0 : ℕ) * A + a.val) * B + b.val
    rw [Nat.zero_mul, Nat.zero_add])

/-- A [1, 1, C] bias block, flattened to a row and repeated down R rows: entry (r, c) is the block's entry (0, 0, c). -/
theorem biasRow_at (R C : Nat) (hC : C ≠ 1) (x : (⟨3, ![1, 1, C]⟩ : Shape).Idx → α)
    (h1 : (⟨3, ![1, 1, C]⟩ : Shape).ShapeCasts ⟨1, ![C]⟩) (h2 : (⟨1, ![C]⟩ : Shape).ShapeCasts ⟨2, ![1, C]⟩)
    (h3 : (⟨2, ![1, C]⟩ : Shape).Broadcasts ⟨2, ![R, C]⟩) (r : Fin R) (c : Fin C) :
    broadcastTo ⟨2, ![R, C]⟩ (shapeCast ⟨2, ![1, C]⟩ (shapeCast ⟨1, ![C]⟩ x h1) h2) h3 (ix2 r c)
      = x (ix3 (0 : Fin 1) (0 : Fin 1) c) := by
  refine (broadcastTo_apply _ h3 (ix2 r c) (ix2 (0 : Fin 1) c) (fun a => ?_)).trans ?_
  · match a with
    | ⟨0, _⟩ => show (0 : ℕ) = if (1 : ℕ) = 1 then 0 else _; rw [if_pos rfl]
    | ⟨1, _⟩ => show c.val = if C = 1 then 0 else c.val; rw [if_neg hC]
  refine (shapeCast_apply _ h2 (ix2 (0 : Fin 1) c) (ix1 c) (by
    rw [Shape.rowMajor_val_one, Shape.rowMajor_val_two]
    show c.val = (0 : ℕ) * C + c.val
    rw [Nat.zero_mul, Nat.zero_add])).trans ?_
  exact shapeCast_apply _ h1 (ix1 c) (ix3 (0 : Fin 1) (0 : Fin 1) c) (by
    rw [Shape.rowMajor_val_three, Shape.rowMajor_val_one]
    show ((0 : ℕ) * 1 + 0) * C + c.val = c.val
    simp)

end Layout

/-! ## The three products -/

/-! ### The product of layer 1: a [2048, 64] block times a [64, 256] matrix -/

/-- The left operand's row is the result's row. -/
theorem lhs1_0 (j : S2048x256.Idx) (q : dot_S2048x64_S64x256_S2048x256_1_0_0_1_n_n.contr.Idx) :
    (dot_S2048x64_S64x256_S2048x256_1_0_0_1_n_n.lhsIdx j q 0).val = (j 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
/-- The left operand's column is the summation index. -/
theorem lhs1_1 (j : S2048x256.Idx) (q : dot_S2048x64_S64x256_S2048x256_1_0_0_1_n_n.contr.Idx) :
    (dot_S2048x64_S64x256_S2048x256_1_0_0_1_n_n.lhsIdx j q 1).val = (q ⟨0, by decide⟩).val :=
  dot_S2048x64_S64x256_S2048x256_1_0_0_1_n_n.lhsIdx_val_of_single rfl j q
/-- The right operand's row is the summation index. -/
theorem rhs1_0 (j : S2048x256.Idx) (q : dot_S2048x64_S64x256_S2048x256_1_0_0_1_n_n.contr.Idx) :
    (dot_S2048x64_S64x256_S2048x256_1_0_0_1_n_n.rhsIdx j q 0).val = (q ⟨0, by decide⟩).val :=
  dot_S2048x64_S64x256_S2048x256_1_0_0_1_n_n.rhsIdx_val_of_single rfl j q
/-- The right operand's column is the result's column. -/
theorem rhs1_1 (j : S2048x256.Idx) (q : dot_S2048x64_S64x256_S2048x256_1_0_0_1_n_n.contr.Idx) :
    (dot_S2048x64_S64x256_S2048x256_1_0_0_1_n_n.rhsIdx j q 1).val = (j 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl

/-- Into a zero accumulator the product's entry (r, j) is the inner product of row r with column j. -/
theorem mm1_at (a : FVec Ideal S2048x64 .bf16) (b : FVec Ideal S64x256 .bf16) (r : Fin 2048) (j : Fin 256) :
    matmul dot_S2048x64_S64x256_S2048x256_1_0_0_1_n_n none a b (constant (F := Ideal) S2048x256 .f32 0x00000000#32) (ix2 r j)
      = ∑ k : Fin 64, a (ix2 r k) * b (ix2 k j) := by
  simp only [matmul]
  rw [Ideal.matmul_constant_zero_apply, ← Equiv.sum_comp (ValueIdx.contrEquiv1 dot_S2048x64_S64x256_S2048x256_1_0_0_1_n_n 64 rfl rfl).symm]
  refine Finset.sum_congr rfl fun k _ => ?_
  have hk := ValueIdx.contrEquiv1_symm_val dot_S2048x64_S64x256_S2048x256_1_0_0_1_n_n 64 rfl rfl k
  have el : dot_S2048x64_S64x256_S2048x256_1_0_0_1_n_n.lhsIdx (ix2 r j) ((ValueIdx.contrEquiv1 dot_S2048x64_S64x256_S2048x256_1_0_0_1_n_n 64 rfl rfl).symm k) = ix2 r k := funext fun a => Fin.ext (by
    match a with
    | ⟨0, _⟩ => exact lhs1_0 _ _
    | ⟨1, _⟩ => exact (lhs1_1 _ _).trans hk)
  have er : dot_S2048x64_S64x256_S2048x256_1_0_0_1_n_n.rhsIdx (ix2 r j) ((ValueIdx.contrEquiv1 dot_S2048x64_S64x256_S2048x256_1_0_0_1_n_n 64 rfl rfl).symm k) = ix2 k j := funext fun a => Fin.ext (by
    match a with
    | ⟨0, _⟩ => exact (rhs1_0 _ _).trans hk
    | ⟨1, _⟩ => exact rhs1_1 _ _)
  rw [el, er]

/-! ### The product of layer 2: a [2048, 256] block times a [256, 256] matrix -/

/-- The left operand's row is the result's row. -/
theorem lhs2_0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
/-- The left operand's column is the summation index. -/
theorem lhs2_1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q
/-- The right operand's row is the summation index. -/
theorem rhs2_0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q
/-- The right operand's column is the result's column. -/
theorem rhs2_1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Into a zero accumulator the product's entry (r, j) is the inner product of row r with column j. -/
theorem mm2_at (a : FVec Ideal S2048x256 .bf16) (b : FVec Ideal S256x256 .bf16) (r : Fin 2048) (j : Fin 256) :
    matmul dot_S2048x256_S256x256_S2048x256_1_0_0_1_n_n none a b (constant (F := Ideal) S2048x256 .f32 0x00000000#32) (ix2 r j)
      = ∑ k : Fin 256, a (ix2 r k) * b (ix2 k j) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 r j) ((ValueIdx.contrEquiv1 dot_S2048x256_S256x256_S2048x256_1_0_0_1_n_n 256 rfl rfl).symm k) = ix2 r k := funext fun a => Fin.ext (by
    match a with
    | ⟨0, _⟩ => exact lhs2_0 _ _
    | ⟨1, _⟩ => exact (lhs2_1 _ _).trans hk)
  have er : dot_S2048x256_S256x256_S2048x256_1_0_0_1_n_n.rhsIdx (ix2 r j) ((ValueIdx.contrEquiv1 dot_S2048x256_S256x256_S2048x256_1_0_0_1_n_n 256 rfl rfl).symm k) = ix2 k j := funext fun a => Fin.ext (by
    match a with
    | ⟨0, _⟩ => exact (rhs2_0 _ _).trans hk
    | ⟨1, _⟩ => exact rhs2_1 _ _)
  rw [el, er]

/-! ### The product of layer 3: a [2048, 256] block times a [256, 784] matrix -/

/-- The left operand's row is the result's row. -/
theorem lhs3_0 (j : S2048x784.Idx) (q : dot_S2048x256_S256x784_S2048x784_1_0_0_1_n_n.contr.Idx) :
    (dot_S2048x256_S256x784_S2048x784_1_0_0_1_n_n.lhsIdx j q 0).val = (j 0).val := by
  unfold DotDims.lhsIdx
  rw [dif_neg (show ¬(0 : Fin S2048x256.rank) ∈ dot_S2048x256_S256x784_S2048x784_1_0_0_1_n_n.lhsBatch by decide), dif_pos (show (0 : Fin S2048x256.rank) ∈ dot_S2048x256_S256x784_S2048x784_1_0_0_1_n_n.lhsNonContracting by decide)]
  rfl
/-- The left operand's column is the summation index. -/
theorem lhs3_1 (j : S2048x784.Idx) (q : dot_S2048x256_S256x784_S2048x784_1_0_0_1_n_n.contr.Idx) :
    (dot_S2048x256_S256x784_S2048x784_1_0_0_1_n_n.lhsIdx j q 1).val = (q ⟨0, by decide⟩).val :=
  dot_S2048x256_S256x784_S2048x784_1_0_0_1_n_n.lhsIdx_val_of_single rfl j q
/-- The right operand's row is the summation index. -/
theorem rhs3_0 (j : S2048x784.Idx) (q : dot_S2048x256_S256x784_S2048x784_1_0_0_1_n_n.contr.Idx) :
    (dot_S2048x256_S256x784_S2048x784_1_0_0_1_n_n.rhsIdx j q 0).val = (q ⟨0, by decide⟩).val :=
  dot_S2048x256_S256x784_S2048x784_1_0_0_1_n_n.rhsIdx_val_of_single rfl j q
/-- The right operand's column is the result's column. -/
theorem rhs3_1 (j : S2048x784.Idx) (q : dot_S2048x256_S256x784_S2048x784_1_0_0_1_n_n.contr.Idx) :
    (dot_S2048x256_S256x784_S2048x784_1_0_0_1_n_n.rhsIdx j q 1).val = (j 1).val := by
  unfold DotDims.rhsIdx
  rw [dif_neg (show ¬(1 : Fin S256x784.rank) ∈ dot_S2048x256_S256x784_S2048x784_1_0_0_1_n_n.rhsBatch by decide), dif_pos (show (1 : Fin S256x784.rank) ∈ dot_S2048x256_S256x784_S2048x784_1_0_0_1_n_n.rhsNonContracting by decide)]
  rfl

/-- Into a zero accumulator the product's entry (r, j) is the inner product of row r with column j. -/
theorem mm3_at (a : FVec Ideal S2048x256 .bf16) (b : FVec Ideal S256x784 .bf16) (r : Fin 2048) (j : Fin 784) :
    matmul dot_S2048x256_S256x784_S2048x784_1_0_0_1_n_n none a b (constant (F := Ideal) S2048x784 .f32 0x00000000#32) (ix2 r j)
      = ∑ k : Fin 256, a (ix2 r k) * b (ix2 k j) := by
  simp only [matmul]
  rw [Ideal.matmul_constant_zero_apply, ← Equiv.sum_comp (ValueIdx.contrEquiv1 dot_S2048x256_S256x784_S2048x784_1_0_0_1_n_n 256 rfl rfl).symm]
  refine Finset.sum_congr rfl fun k _ => ?_
  have hk := ValueIdx.contrEquiv1_symm_val dot_S2048x256_S256x784_S2048x784_1_0_0_1_n_n 256 rfl rfl k
  have el : dot_S2048x256_S256x784_S2048x784_1_0_0_1_n_n.lhsIdx (ix2 r j) ((ValueIdx.contrEquiv1 dot_S2048x256_S256x784_S2048x784_1_0_0_1_n_n 256 rfl rfl).symm k) = ix2 r k := funext fun a => Fin.ext (by
    match a with
    | ⟨0, _⟩ => exact lhs3_0 _ _
    | ⟨1, _⟩ => exact (lhs3_1 _ _).trans hk)
  have er : dot_S2048x256_S256x784_S2048x784_1_0_0_1_n_n.rhsIdx (ix2 r j) ((ValueIdx.contrEquiv1 dot_S2048x256_S256x784_S2048x784_1_0_0_1_n_n 256 rfl rfl).symm k) = ix2 k j := funext fun a => Fin.ext (by
    match a with
    | ⟨0, _⟩ => exact (rhs3_0 _ _).trans hk
    | ⟨1, _⟩ => exact rhs3_1 _ _)
  rw [el, er]

/-! ## The payloads at an index -/

variable (x0 : Vec Ideal S1x2048x64 .f32) (x1 : Vec Ideal S1x64x256 .f32) (x2 : Vec Ideal S1x1x256 .f32)
  (x3 : Vec Ideal S1x256x256 .f32) (x4 : Vec Ideal S1x1x256 .f32) (x5 : Vec Ideal S1x256x784 .f32) (x6 : Vec Ideal S1x1x784 .f32)

/-- The last weight block as the product's right operand: its entry (k, o). -/
theorem pay2_at (k : Fin 256) (o : Fin 784) : k0_pay2 (F := Ideal) x5 (ix2 k o) = x5 (ix3 (0 : Fin 1) k o) := by
  unfold k0_pay2
  exact squeeze_at 256 784 x5 _ k o

/-- The last bias block as a vector: its entry o. -/
theorem pay3_at (o : Fin 784) : k0_pay3 (F := Ideal) x6 (ix1 o) = x6 (ix3 (0 : Fin 1) (0 : Fin 1) o) := by
  unfold k0_pay3
  exact shapeCast_apply x6 _ (ix1 o) (ix3 (0 : Fin 1) (0 : Fin 1) o) (by
    rw [Shape.rowMajor_val_three, Shape.rowMajor_val_one]
    show ((0 : ℕ) * 1 + 0) * 784 + o.val = o.val
    omega)

/-- The second hidden layer of the block: entry (r, k) is `hiddenEntry` over the first hidden layer of row r. -/
theorem pay4_at (r : Fin 2048) (k : Fin 256) :
    k0_pay4 (F := Ideal) x0 x1 x2 x3 x4 (ix2 r k)
      = hiddenEntry (fun j : Fin 256 => hiddenEntry (fun i : Fin 64 => x0 (ix3 (0 : Fin 1) r i)) (fun i : Fin 64 => x1 (ix3 (0 : Fin 1) i j)) (x2 (ix3 (0 : Fin 1) (0 : Fin 1) j)))
          (fun j : Fin 256 => x3 (ix3 (0 : Fin 1) j k)) (x4 (ix3 (0 : Fin 1) (0 : Fin 1) k)) := by
  unfold k0_pay4
  try dsimp only
  rw [ValueIdx.truncf_apply, ValueIdx.maximumf_apply, ValueIdx.addf_apply, mm2_at, biasRow_at 2048 256 (by decide)]
  unfold hiddenEntry affineEntry
  refine congrArg₂ max (congrArg₂ (· + ·) (Finset.sum_congr rfl fun j _ => ?_) rfl) rfl
  rw [ValueIdx.truncf_apply, ValueIdx.truncf_apply, squeeze_at 256 256, ValueIdx.maximumf_apply, ValueIdx.addf_apply, mm1_at,
    biasRow_at 2048 256 (by decide)]
  refine congrArg (· * _) (congrArg₂ max (congrArg₂ (· + ·) (Finset.sum_congr rfl fun i _ => ?_) rfl) rfl)
  rw [ValueIdx.truncf_apply, ValueIdx.truncf_apply, squeeze_at 2048 64, squeeze_at 64 256]

/-- The stored block from the three values it is computed from: entry (0, r, o) is the sigmoid of the affine entry. -/
theorem pay1_at (v28 : FVec Ideal S256x784 .bf16) (v30 : FVec Ideal S784 .f32) (v31 : FVec Ideal S2048x256 .bf16) (r : Fin 2048) (o : Fin 784) :
    k0_pay1 (F := Ideal) v28 v30 v31 (constant (F := Ideal) S2048x784 .f32 0x00000000#32) (ix3 (0 : Fin 1) r o)
      = Ideal.logistic (affineEntry (fun k : Fin 256 => v31 (ix2 r k)) (fun k : Fin 256 => v28 (ix2 k o)) (v30 (ix1 o))) := by
  unfold k0_pay1
  try dsimp only
  rw [unsqueeze_at 2048 784]
  show Ideal.logistic (_ + _) = _
  rw [mm3_at]
  unfold affineEntry
  refine congrArg Ideal.logistic (congrArg (_ + ·) ?_)
  refine (broadcastTo_apply _ _ (ix2 r o) (ix2 (0 : Fin 1) o) (fun a => ?_)).trans ?_
  · match a with
    | ⟨0, _⟩ => show (0 : ℕ) = if (1 : ℕ) = 1 then 0 else _; rw [if_pos rfl]
    | ⟨1, _⟩ => show o.val = if (784 : ℕ) = 1 then 0 else o.val; rw [if_neg (by decide)]
  exact shapeCast_apply _ _ (ix2 (0 : Fin 1) o) (ix1 o) (by
    rw [Shape.rowMajor_val_one, Shape.rowMajor_val_two]
    show o.val = (0 : ℕ) * 784 + o.val
    omega)

/-- WHAT THE BODY STORES: entry (0, r, o) of the output block is the network's output entry o for row r of the input
    block and the parameter blocks of the point's mixture. -/
theorem stored_at (r : Fin 2048) (o : Fin 784) :
    k0_pay1 (F := Ideal) (k0_pay2 x5) (k0_pay3 x6) (k0_pay4 x0 x1 x2 x3 x4) (constant (F := Ideal) S2048x784 .f32 0x00000000#32) (ix3 (0 : Fin 1) r o)
      = outEntry (fun i => x0 (ix3 (0 : Fin 1) r i)) (fun i j => x1 (ix3 (0 : Fin 1) i j)) (fun j => x2 (ix3 (0 : Fin 1) (0 : Fin 1) j))
          (fun j k => x3 (ix3 (0 : Fin 1) j k)) (fun k => x4 (ix3 (0 : Fin 1) (0 : Fin 1) k))
          (fun k o => x5 (ix3 (0 : Fin 1) k o)) (fun o => x6 (ix3 (0 : Fin 1) (0 : Fin 1) o)) o := by
  rw [pay1_at]
  simp only [pay2_at, pay3_at, pay4_at]
  rfl

end Cert.KernelIdeal.Row

end
-- ==== Proof.KernelValue.lean ====
/-
  From the kernel's blocks to its result array.

  The grid has 16 × 8 points; point (n, q) stages rows 2048·q … 2048·q + 2047 of mixture n's inputs together with
  mixture n's parameters, and writes back the [1, 2048, 784] block of the result at block index (n, q, 0). By
  `KernelRow` the stored block's entry (0, r, o) is the network's output for the input row it staged, that is for
  row (n, 2048·q + r) of the input array: so each point writes back exactly its block of the array `MlpRow.net` of
  the arguments. The blocks tile the result array (row b lies in the block of point (n, b / 2048)), hence after the
  run the result array is `net` of the arguments.
-/
import proofs.«125137_j68487548502138_1_alg».proof.Proof.Gen.KernelIdeal.Value
import proofs.«125137_j68487548502138_1_alg».proof.Proof.KernelRow
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Net

open Cert.KernelIdeal Cert.KernelIdeal.Gen Cert.KernelIdeal.Value Cert.MlpRow

variable (m : (ℓ : Loc nD τ sig) → Buf (Elt Ideal) ℓ) (ρ : Dev nD → PrngReg)

theorem hz : (![0, 0, 0] : Fin 3 → Nat) = fun _ => 0 := funext fun a => by fin_cases a <;> rfl

/-! ## Where each window's block sits -/

/-- The index maps over the grid: the input rows move with the output block; every parameter window follows the
    output's mixture and stays at block 0 on its other axes; the output's last block index is 0. -/
theorem idx_facts : ∀ t : Fin cfg0.N,
    win0_0.index t (0 : Fin 3) = win0_7.index t (0 : Fin 3) ∧ win0_0.index t (1 : Fin 3) = win0_7.index t (1 : Fin 3) ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 3) = win0_7.index t (0 : Fin 3) ∧ win0_2.index t (1 : Fin 3) = 0 ∧ win0_2.index t (2 : Fin 3) = 0
    ∧ win0_3.index t (0 : Fin 3) = win0_7.index t (0 : Fin 3) ∧ win0_3.index t (1 : Fin 3) = 0 ∧ win0_3.index t (2 : Fin 3) = 0
    ∧ win0_4.index t (0 : Fin 3) = win0_7.index t (0 : Fin 3) ∧ win0_4.index t (1 : Fin 3) = 0 ∧ win0_4.index t (2 : Fin 3) = 0
    ∧ win0_5.index t (0 : Fin 3) = win0_7.index t (0 : Fin 3) ∧ win0_5.index t (1 : Fin 3) = 0 ∧ win0_5.index t (2 : Fin 3) = 0
    ∧ win0_6.index t (0 : Fin 3) = win0_7.index t (0 : Fin 3) ∧ win0_6.index t (1 : Fin 3) = 0 ∧ win0_6.index t (2 : Fin 3) = 0
    ∧ win0_7.index t (2 : Fin 3) = 0 :=
  (by decide +kernel : ∀ t : Fin grid0.N, _)

/-- Every (mixture, row block) pair is some point's output block. -/
theorem idx_onto : ∀ (q0 : Fin 16) (q1 : Fin 8), ∃ t : Fin cfg0.N, win0_7.index t = ![q0.val, q1.val, 0] :=
  (by decide +kernel : ∀ (q0 : Fin 16) (q1 : Fin 8), ∃ t : Fin grid0.N, win0_7.index t = ![q0.val, q1.val, 0])

/-! ## The staged blocks, at their literal types -/

abbrev blk0 (c : Dev nD) (t : Fin cfg0.N) : Vec Ideal S1x2048x64 .f32 := iblk m c 0 t
abbrev blk1 (c : Dev nD) (t : Fin cfg0.N) : Vec Ideal S1x64x256 .f32 := iblk m c 1 t
abbrev blk2 (c : Dev nD) (t : Fin cfg0.N) : Vec Ideal S1x1x256 .f32 := iblk m c 2 t
abbrev blk3 (c : Dev nD) (t : Fin cfg0.N) : Vec Ideal S1x256x256 .f32 := iblk m c 3 t
abbrev blk4 (c : Dev nD) (t : Fin cfg0.N) : Vec Ideal S1x1x256 .f32 := iblk m c 4 t
abbrev blk5 (c : Dev nD) (t : Fin cfg0.N) : Vec Ideal S1x256x784 .f32 := iblk m c 5 t
abbrev blk6 (c : Dev nD) (t : Fin cfg0.N) : Vec Ideal S1x1x784 .f32 := iblk m c 6 t

/-- The input window's block at a point is 2048 consecutive rows of the point's mixture. -/
theorem blk0_at (c : Dev nD) (t : Fin cfg0.N) (r : Fin 2048) (i : Fin 64) (k : S16x16384x64.Idx)
    (h0 : (k 0).val = win0_7.index t (0 : Fin 3)) (h1 : (k 1).val = win0_7.index t (1 : Fin 3) * 2048 + r.val) (h2 : (k 2).val = i.val) :
    blk0 m c t (ix3 (0 : Fin 1) r i) = (V m c main_arg0 : S16x16384x64.Idx → EReal) k := by
  obtain ⟨f00, f01, f02, f10, f11, f12, f20, f21, f22, f30, f31, f32, f40, f41, f42, f50, f51, f52, f60, f61, f62, f72⟩ := idx_facts t
  unfold blk0 iblk
  rw [View.read_apply]
  show V m c main_arg0 _ = V m c main_arg0 k
  congr 1
  funext x
  apply Fin.ext
  match x with
  | ⟨0, _⟩ => show win0_0.index t (0 : Fin 3) * 1 + 1 * (0 : ℕ) = (k 0).val; omega
  | ⟨1, _⟩ => show win0_0.index t (1 : Fin 3) * 2048 + 1 * r.val = (k 1).val; omega
  | ⟨2, _⟩ => show win0_0.index t (2 : Fin 3) * 64 + 1 * i.val = (k 2).val; omega

/-- The first weight window's block at a point of mixture n is that mixture's [64, 256] matrix. -/
theorem blk1_at (c : Dev nD) (t : Fin cfg0.N) (a : Fin 64) (b : Fin 256) (k : S16x64x256.Idx)
    (h0 : (k 0).val = win0_7.index t (0 : Fin 3)) (h1 : (k 1).val = a.val) (h2 : (k 2).val = b.val) :
    blk1 m c t (ix3 (0 : Fin 1) a b) = (V m c main_arg1 : S16x64x256.Idx → EReal) k := by
  obtain ⟨f00, f01, f02, f10, f11, f12, f20, f21, f22, f30, f31, f32, f40, f41, f42, f50, f51, f52, f60, f61, f62, f72⟩ := idx_facts t
  unfold blk1 iblk
  rw [View.read_apply]
  show V m c main_arg1 _ = V m c main_arg1 k
  congr 1
  funext x
  apply Fin.ext
  match x with
  | ⟨0, _⟩ => show win0_1.index t (0 : Fin 3) * 1 + 1 * (0 : ℕ) = (k 0).val; omega
  | ⟨1, _⟩ => show win0_1.index t (1 : Fin 3) * 64 + 1 * a.val = (k 1).val; omega
  | ⟨2, _⟩ => show win0_1.index t (2 : Fin 3) * 256 + 1 * b.val = (k 2).val; omega

/-- The second weight window's block at a point of mixture n is that mixture's [256, 256] matrix. -/
theorem blk3_at (c : Dev nD) (t : Fin cfg0.N) (a : Fin 256) (b : Fin 256) (k : S16x256x256.Idx)
    (h0 : (k 0).val = win0_7.index t (0 : Fin 3)) (h1 : (k 1).val = a.val) (h2 : (k 2).val = b.val) :
    blk3 m c t (ix3 (0 : Fin 1) a b) = (V m c main_arg3 : S16x256x256.Idx → EReal) k := by
  obtain ⟨f00, f01, f02, f10, f11, f12, f20, f21, f22, f30, f31, f32, f40, f41, f42, f50, f51, f52, f60, f61, f62, f72⟩ := idx_facts t
  unfold blk3 iblk
  rw [View.read_apply]
  show V m c main_arg3 _ = V m c main_arg3 k
  congr 1
  funext x
  apply Fin.ext
  match x with
  | ⟨0, _⟩ => show win0_3.index t (0 : Fin 3) * 1 + 1 * (0 : ℕ) = (k 0).val; omega
  | ⟨1, _⟩ => show win0_3.index t (1 : Fin 3) * 256 + 1 * a.val = (k 1).val; omega
  | ⟨2, _⟩ => show win0_3.index t (2 : Fin 3) * 256 + 1 * b.val = (k 2).val; omega

/-- The last weight window's block at a point of mixture n is that mixture's [256, 784] matrix. -/
theorem blk5_at (c : Dev nD) (t : Fin cfg0.N) (a : Fin 256) (b : Fin 784) (k : S16x256x784.Idx)
    (h0 : (k 0).val = win0_7.index t (0 : Fin 3)) (h1 : (k 1).val = a.val) (h2 : (k 2).val = b.val) :
    blk5 m c t (ix3 (0 : Fin 1) a b) = (V m c main_arg5 : S16x256x784.Idx → EReal) k := by
  obtain ⟨f00, f01, f02, f10, f11, f12, f20, f21, f22, f30, f31, f32, f40, f41, f42, f50, f51, f52, f60, f61, f62, f72⟩ := idx_facts t
  unfold blk5 iblk
  rw [View.read_apply]
  show V m c main_arg5 _ = V m c main_arg5 k
  congr 1
  funext x
  apply Fin.ext
  match x with
  | ⟨0, _⟩ => show win0_5.index t (0 : Fin 3) * 1 + 1 * (0 : ℕ) = (k 0).val; omega
  | ⟨1, _⟩ => show win0_5.index t (1 : Fin 3) * 256 + 1 * a.val = (k 1).val; omega
  | ⟨2, _⟩ => show win0_5.index t (2 : Fin 3) * 784 + 1 * b.val = (k 2).val; omega

/-- The first bias array the region finds is the argument with a unit axis inserted: entry (n, 0, j) is the argument's (n, j). -/
theorem V_main_v0_at (c : Dev nD) (n : Fin 16) (j : Fin 256) :
    (V m c main_v0 : S16x1x256.Idx → EReal) (ix3 n (0 : Fin 1) j) = (m ((c : Thread nD τ).loc main_arg2) : S16x256.Idx → EReal) (ix2 n j) := by
  have e : (V m c main_v0 : S16x1x256.Idx → EReal)
      = shapeCast S16x1x256 (m ((c : Thread nD τ).loc main_arg2) : S16x256.Idx → EReal) Facts₀.shapeCasts_S16x256_S16x1x256 := by
    dsimp only [V, hostOps0]; after_results; rfl
  rw [e]
  exact shapeCast_apply _ _ (ix3 n (0 : Fin 1) j) (ix2 n j) (by
    rw [Shape.rowMajor_val_three, Shape.rowMajor_val_two]
    show n.val * 256 + j.val = (n.val * 1 + 0) * 256 + j.val
    omega)

/-- The first bias window's block at a point of mixture n is that mixture's bias row. -/
theorem blk2_at (c : Dev nD) (t : Fin cfg0.N) (j : Fin 256) (n : Fin 16) (hn : n.val = win0_7.index t (0 : Fin 3)) :
    blk2 m c t (ix3 (0 : Fin 1) (0 : Fin 1) j) = (m ((c : Thread nD τ).loc main_arg2) : S16x256.Idx → EReal) (ix2 n j) := by
  obtain ⟨f00, f01, f02, f10, f11, f12, f20, f21, f22, f30, f31, f32, f40, f41, f42, f50, f51, f52, f60, f61, f62, f72⟩ := idx_facts t
  rw [← V_main_v0_at m c n j]
  unfold blk2 iblk
  rw [View.read_apply]
  show V m c main_v0 _ = V m c main_v0 (ix3 n (0 : Fin 1) j)
  congr 1
  funext x
  apply Fin.ext
  match x with
  | ⟨0, _⟩ => show win0_2.index t (0 : Fin 3) * 1 + 1 * (0 : ℕ) = n.val; omega
  | ⟨1, _⟩ => show win0_2.index t (1 : Fin 3) * 1 + 1 * (0 : ℕ) = (0 : ℕ); omega
  | ⟨2, _⟩ => show win0_2.index t (2 : Fin 3) * 256 + 1 * j.val = j.val; omega

/-- The second bias array the region finds is the argument with a unit axis inserted: entry (n, 0, j) is the argument's (n, j). -/
theorem V_main_v1_at (c : Dev nD) (n : Fin 16) (j : Fin 256) :
    (V m c main_v1 : S16x1x256.Idx → EReal) (ix3 n (0 : Fin 1) j) = (m ((c : Thread nD τ).loc main_arg4) : S16x256.Idx → EReal) (ix2 n j) := by
  have e : (V m c main_v1 : S16x1x256.Idx → EReal)
      = shapeCast S16x1x256 (m ((c : Thread nD τ).loc main_arg4) : S16x256.Idx → EReal) Facts₀.shapeCasts_S16x256_S16x1x256 := by
    dsimp only [V, hostOps0]; after_results; rfl
  rw [e]
  exact shapeCast_apply _ _ (ix3 n (0 : Fin 1) j) (ix2 n j) (by
    rw [Shape.rowMajor_val_three, Shape.rowMajor_val_two]
    show n.val * 256 + j.val = (n.val * 1 + 0) * 256 + j.val
    omega)

/-- The second bias window's block at a point of mixture n is that mixture's bias row. -/
theorem blk4_at (c : Dev nD) (t : Fin cfg0.N) (j : Fin 256) (n : Fin 16) (hn : n.val = win0_7.index t (0 : Fin 3)) :
    blk4 m c t (ix3 (0 : Fin 1) (0 : Fin 1) j) = (m ((c : Thread nD τ).loc main_arg4) : S16x256.Idx → EReal) (ix2 n j) := by
  obtain ⟨f00, f01, f02, f10, f11, f12, f20, f21, f22, f30, f31, f32, f40, f41, f42, f50, f51, f52, f60, f61, f62, f72⟩ := idx_facts t
  rw [← V_main_v1_at m c n j]
  unfold blk4 iblk
  rw [View.read_apply]
  show V m c main_v1 _ = V m c main_v1 (ix3 n (0 : Fin 1) j)
  congr 1
  funext x
  apply Fin.ext
  match x with
  | ⟨0, _⟩ => show win0_4.index t (0 : Fin 3) * 1 + 1 * (0 : ℕ) = n.val; omega
  | ⟨1, _⟩ => show win0_4.index t (1 : Fin 3) * 1 + 1 * (0 : ℕ) = (0 : ℕ); omega
  | ⟨2, _⟩ => show win0_4.index t (2 : Fin 3) * 256 + 1 * j.val = j.val; omega

/-- The last bias array the region finds is the argument with a unit axis inserted: entry (n, 0, j) is the argument's (n, j). -/
theorem V_main_v2_at (c : Dev nD) (n : Fin 16) (j : Fin 784) :
    (V m c main_v2 : S16x1x784.Idx → EReal) (ix3 n (0 : Fin 1) j) = (m ((c : Thread nD τ).loc main_arg6) : S16x784.Idx → EReal) (ix2 n j) := by
  have e : (V m c main_v2 : S16x1x784.Idx → EReal)
      = shapeCast S16x1x784 (m ((c : Thread nD τ).loc main_arg6) : S16x784.Idx → EReal) Facts₀.shapeCasts_S16x784_S16x1x784 := by
    dsimp only [V, hostOps0]; after_results; rfl
  rw [e]
  exact shapeCast_apply _ _ (ix3 n (0 : Fin 1) j) (ix2 n j) (by
    rw [Shape.rowMajor_val_three, Shape.rowMajor_val_two]
    show n.val * 784 + j.val = (n.val * 1 + 0) * 784 + j.val
    omega)

/-- The last bias window's block at a point of mixture n is that mixture's bias row. -/
theorem blk6_at (c : Dev nD) (t : Fin cfg0.N) (j : Fin 784) (n : Fin 16) (hn : n.val = win0_7.index t (0 : Fin 3)) :
    blk6 m c t (ix3 (0 : Fin 1) (0 : Fin 1) j) = (m ((c : Thread nD τ).loc main_arg6) : S16x784.Idx → EReal) (ix2 n j) := by
  obtain ⟨f00, f01, f02, f10, f11, f12, f20, f21, f22, f30, f31, f32, f40, f41, f42, f50, f51, f52, f60, f61, f62, f72⟩ := idx_facts t
  rw [← V_main_v2_at m c n j]
  unfold blk6 iblk
  rw [View.read_apply]
  show V m c main_v2 _ = V m c main_v2 (ix3 n (0 : Fin 1) j)
  congr 1
  funext x
  apply Fin.ext
  match x with
  | ⟨0, _⟩ => show win0_6.index t (0 : Fin 3) * 1 + 1 * (0 : ℕ) = n.val; omega
  | ⟨1, _⟩ => show win0_6.index t (1 : Fin 3) * 1 + 1 * (0 : ℕ) = (0 : ℕ); omega
  | ⟨2, _⟩ => show win0_6.index t (2 : Fin 3) * 784 + 1 * j.val = j.val; omega

/-! ## What a point writes back -/

/-- The result array: the network of the seven arguments, row by row. -/
abbrev result (c : Dev nD) : S16x16384x784.Idx → EReal :=
  net (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The body's stored block at local row r and column o is `result` at the array index under it. -/
theorem stored_entry (c : Dev nD) (t : Fin cfg0.N) (r : Fin 2048) (o : Fin 784) (e : S16x16384x784.Idx)
    (he0 : (e 0).val = win0_7.index t (0 : Fin 3)) (he1 : (e 1).val = win0_7.index t (1 : Fin 3) * 2048 + r.val) (he2 : (e 2).val = o.val) :
    k0_pay1 (F := Ideal) (k0_pay2 (blk5 m c t)) (k0_pay3 (blk6 m c t)) (k0_pay4 (blk0 m c t) (blk1 m c t) (blk2 m c t) (blk3 m c t) (blk4 m c t))
        (constant (F := Ideal) S2048x784 .f32 0x00000000#32) (ix3 (0 : Fin 1) r o)
      = result m c e := by
  rw [Row.stored_at]
  have ho : e 2 = o := Fin.ext he2
  have e0 : ∀ i : Fin 64, blk0 m c t (ix3 (0 : Fin 1) r i) = (m ((c : Thread nD τ).loc main_arg0) : S16x16384x64.Idx → EReal) (ix3 (e 0) (e 1) i) := fun i => by
    rw [blk0_at m c t r i (ix3 (e 0) (e 1) i) he0 he1 rfl, V_main_arg0]
  have e1 : ∀ (i : Fin 64) (j : Fin 256), blk1 m c t (ix3 (0 : Fin 1) i j) = (m ((c : Thread nD τ).loc main_arg1) : S16x64x256.Idx → EReal) (ix3 (e 0) i j) := fun i j => by
    rw [blk1_at m c t i j (ix3 (e 0) i j) he0 rfl rfl, V_main_arg1]
  have e2 : ∀ j : Fin 256, blk2 m c t (ix3 (0 : Fin 1) (0 : Fin 1) j) = (m ((c : Thread nD τ).loc main_arg2) : S16x256.Idx → EReal) (ix2 (e 0) j) := fun j =>
    blk2_at m c t j (e 0) he0
  have e3 : ∀ (j : Fin 256) (k : Fin 256), blk3 m c t (ix3 (0 : Fin 1) j k) = (m ((c : Thread nD τ).loc main_arg3) : S16x256x256.Idx → EReal) (ix3 (e 0) j k) := fun j k => by
    rw [blk3_at m c t j k (ix3 (e 0) j k) he0 rfl rfl, V_main_arg3]
  have e4 : ∀ k : Fin 256, blk4 m c t (ix3 (0 : Fin 1) (0 : Fin 1) k) = (m ((c : Thread nD τ).loc main_arg4) : S16x256.Idx → EReal) (ix2 (e 0) k) := fun k =>
    blk4_at m c t k (e 0) he0
  have e5 : ∀ (k : Fin 256) (o : Fin 784), blk5 m c t (ix3 (0 : Fin 1) k o) = (m ((c : Thread nD τ).loc main_arg5) : S16x256x784.Idx → EReal) (ix3 (e 0) k o) := fun k o => by
    rw [blk5_at m c t k o (ix3 (e 0) k o) he0 rfl rfl, V_main_arg5]
  have e6 : ∀ o : Fin 784, blk6 m c t (ix3 (0 : Fin 1) (0 : Fin 1) o) = (m ((c : Thread nD τ).loc main_arg6) : S16x784.Idx → EReal) (ix2 (e 0) o) := fun o =>
    blk6_at m c t o (e 0) he0
  simp only [e0, e1, e2, e3, e4, e5, e6]
  unfold result net
  rw [ho]

/-- WHAT POINT `t` WRITES BACK is block `t` of `result`. -/
theorem flushed_eq (c : Dev nD) (t : Fin cfg0.N) :
    (dats m 0 c).flushed 7 t = ((cfg0.win 7).blk t).view.read (Elt Ideal) (result m c) := by
  rw [flushed7]
  unfold out0_7
  rw [View.canon_unit_zero hz]
  simp only [View.ld_unit_zero (S := S1x2048x64) hz, View.ld_unit_zero (S := S1x64x256) hz, View.ld_unit_zero (S := S1x1x256) hz,
    View.ld_unit_zero (S := S1x256x256) hz, View.ld_unit_zero (S := S1x256x784) hz, View.ld_unit_zero (S := S1x1x784) hz]
  funext y
  have hy0 : (y 0).val = 0 := by have h : (y 0).val < 1 := (y 0).isLt; omega
  have hy : y = ix3 (0 : Fin 1) (⟨(y 1).val, (y 1).isLt⟩ : Fin 2048) (⟨(y 2).val, (y 2).isLt⟩ : Fin 784) := by
    funext a
    match a with
    | ⟨0, _⟩ => exact Fin.ext hy0
    | ⟨1, _⟩ => rfl
    | ⟨2, _⟩ => rfl
  show k0_pay1 (F := Ideal) (k0_pay2 (blk5 m c t)) (k0_pay3 (blk6 m c t)) (k0_pay4 (blk0 m c t) (blk1 m c t) (blk2 m c t) (blk3 m c t) (blk4 m c t))
        (constant (F := Ideal) S2048x784 .f32 0x00000000#32) y = result m c (((cfg0.win 7).blk t).view.emb y)
  rw [hy]
  refine stored_entry m c t _ _ _ ?_ ?_ ?_
  · show win0_7.index t (0 : Fin 3) * 1 + 1 * (0 : ℕ) = win0_7.index t (0 : Fin 3); omega
  · show win0_7.index t (1 : Fin 3) * 2048 + 1 * (y 1).val = win0_7.index t (1 : Fin 3) * 2048 + (y 1).val; omega
  · obtain ⟨f00, f01, f02, f10, f11, f12, f20, f21, f22, f30, f31, f32, f40, f41, f42, f50, f51, f52, f60, f61, f62, f72⟩ := idx_facts t
    show win0_7.index t (2 : Fin 3) * 784 + 1 * (y 2).val = (y 2).val; omega

/-! ## The blocks tile the array -/

/-- An index of the array is in point `t`'s block iff each coordinate is in the block's range on its axis. -/
theorem mem_blk (t : Fin cfg0.N) (i : S16x16384x784.Idx) :
    i ∈ ((cfg0.win 7).blk t).view.set ↔ ∀ a : Fin 3, win0_7.index t a * S1x2048x784.size a ≤ (i a).val ∧ (i a).val < win0_7.index t a * S1x2048x784.size a + S1x2048x784.size a := by
  show i ∈ ((View.whole main_v3).slice (win0_7.rect t)).set ↔ _
  rw [View.set_slice_whole, Rect.mem_set_unit]
  exact Iff.rfl

/-- Every index of the result array lies in the block of the point of its mixture and row block. -/
theorem cover (i : S16x16384x784.Idx) :
    ∃ t : Fin cfg0.N, (cfg0.win 7).flush t = true ∧ i ∈ ((cfg0.win 7).blk t).view.set := by
  have hi0 : (i 0).val < 16 := (i 0).isLt
  have hi1 : (i 1).val < 16384 := (i 1).isLt
  have hi2 : (i 2).val < 784 := (i 2).isLt
  obtain ⟨t, ht⟩ := idx_onto ⟨(i 0).val, hi0⟩ ⟨(i 1).val / 2048, by omega⟩
  have q0 : win0_7.index t (0 : Fin 3) = (i 0).val := congrFun ht 0
  have q1 : win0_7.index t (1 : Fin 3) = (i 1).val / 2048 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 784 ≤ (i 2).val ∧ (i 2).val < win0_7.index t (2 : Fin 3) * 784 + 784; omega

/-- THE ARRAY after the run is `result`. -/
theorem final (c : Dev nD) : (dats m 0 c).arrAt 7 cfg0.N = result m c :=
  (dats m 0 c).arrAt_eq_of_cover 7 (result m c) (fun t _ => flushed_eq m c t) cover

/-! ## The run, read -/

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Net

end
-- ==== Proof.lean ====
/-
  A mixture of sixteen three-layer perceptrons, evaluated on 16384 rows each:
    h₁ = max (s · W_z2h + b_z2h) 0,  h₂ = max (h₁ · W_h2hd + b_h2hd) 0,  x = σ (h₂ · W_h2x + b_h2x),  σ u = 1 / (1 + e^(-u)).

  The kernel walks a 16 × 8 grid; at point (n, q) it computes the 2048 rows 2048·q … 2048·q + 2047 of mixture n from
  that mixture's parameters and writes them back as one block of the result. The reference computes the three layers
  as batched contractions over whole arrays. Over the extended reals both give, at every entry (n, b, o), the same
  expression `MlpRow.outEntry` of input row (n, b, ·) and mixture n's parameters: the sums run over the same index
  types, the change of float format inside the kernel is the identity, and the reference's quotient 1 / (1 + e^(-u)) is
  the sigmoid the kernel applies. No entry is asked to be finite.

  `MlpRow` states the row function and the array `net` it induces; `RefRow` shows the reference's result is `net` of
  its arguments; `KernelRow` shows a grid point's stored block is the row function of its staged blocks; `KernelValue`
  places the blocks in the result array and shows they tile it, so the kernel's result is `net` of its arguments too.
  The idealized kernel is the kernel's own text read over the extended reals (no operation was rewritten), so the
  idealization conjunct is trivial.
-/
import proofs.«125137_j68487548502138_1_alg».proof.Defs
import proofs.«125137_j68487548502138_1_alg».proof.Proof.Gen.Kernel
import proofs.«125137_j68487548502138_1_alg».proof.Proof.Gen.Kernel.Skeleton
import proofs.«125137_j68487548502138_1_alg».proof.Proof.Gen.Kernel.Launch
import proofs.«125137_j68487548502138_1_alg».proof.Proof.Gen.Kernel.Points
import proofs.«125137_j68487548502138_1_alg».proof.Proof.Gen.Kernel.Frame
import proofs.«125137_j68487548502138_1_alg».proof.Proof.Gen.KernelIdeal
import proofs.«125137_j68487548502138_1_alg».proof.Proof.Gen.KernelIdeal.Skeleton
import proofs.«125137_j68487548502138_1_alg».proof.Proof.Gen.KernelIdeal.Launch
import proofs.«125137_j68487548502138_1_alg».proof.Proof.Gen.KernelIdeal.Points
import proofs.«125137_j68487548502138_1_alg».proof.Proof.Gen.KernelIdeal.Frame
import proofs.«125137_j68487548502138_1_alg».proof.Proof.Gen.ReferenceIdeal
import proofs.«125137_j68487548502138_1_alg».proof.Proof.Gen.Pre_finite_inputs
import proofs.«125137_j68487548502138_1_alg».proof.Proof.Gen.KernelIdeal.Value
import proofs.«125137_j68487548502138_1_alg».proof.Proof.Gen.ReferenceIdeal.Run
import proofs.«125137_j68487548502138_1_alg».proof.Proof.Gen.ReferenceIdeal.Read
import proofs.«125137_j68487548502138_1_alg».proof.Proof.MlpRow
import proofs.«125137_j68487548502138_1_alg».proof.Proof.RefRow
import proofs.«125137_j68487548502138_1_alg».proof.Proof.KernelRow
import proofs.«125137_j68487548502138_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the result array at `MlpRow.net` of those
    arguments: the kernel block by block (`KernelValue`), the reference stage by stage (`RefRow`). -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v19_eq, Cert.ReferenceIdeal.RefRow.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
